-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x16x16 : Shape := ⟨4, ![8, 32, 16, 16]⟩
abbrev S4096 : Shape := ⟨1, ![4096]⟩
abbrev S16 : Shape := ⟨1, ![16]⟩
abbrev S_ : Shape := ⟨0, ![]⟩

class Facts : Prop where
  bcast_S_S8x32x16x16 : S_.BroadcastsInDim S8x32x16x16 (![] : Fin 0 → Fin S8x32x16x16.rank)
  reducesTo_S8x32x16x16_S_d0_1_2_3 : S8x32x16x16.ReducesTo [0, 1, 2, 3] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x32x16x16 .f32) (main_arg1 : FVec F S4096 .f32) (main_arg2 : IVec S16 32) : IVec S_ 1 :=
  let main_v0 : FVec F S8x32x16x16 .f32 := Host.absf main_arg0
  let main_cst : FVec F S_ .f32 := constant S_ .f32 0x7F800000#32
  let main_v1 : FVec F S8x32x16x16 .f32 := broadcastInDim S8x32x16x16 ![] bcast_S_S8x32x16x16 main_cst
  let main_v2 : IVec S8x32x16x16 1 := cmpf .olt main_v0 main_v1
  let main_c : IVec S_ 1 := constantI S_ 1 1#1
  let main_v3 : IVec S_ 1 := (fun x v => Host.reduce IntOp.andi x v reducesTo_S8x32x16x16_S_d0_1_2_3 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S8x32x16x16 : Shape := ⟨4, ![8, 32, 16, 16]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S32x4096x16x16 : Shape := ⟨4, ![32, 4096, 16, 16]⟩
abbrev S8x1x16x16 : Shape := ⟨4, ![8, 1, 16, 16]⟩
abbrev S512x16 : Shape := ⟨2, ![512, 16]⟩
abbrev S1x512x16x16 : Shape := ⟨4, ![1, 512, 16, 16]⟩
abbrev S1x1x16x16 : Shape := ⟨4, ![1, 1, 16, 16]⟩
abbrev S16x16 : Shape := ⟨2, ![16, 16]⟩
abbrev S512x16x1 : Shape := ⟨3, ![512, 16, 1]⟩
abbrev S1x16x16 : Shape := ⟨3, ![1, 16, 16]⟩
abbrev S512x16x16 : Shape := ⟨3, ![512, 16, 16]⟩

abbrev nBuf : Space → Nat
  | .hbm => 12
  | .vmem => 6
  | .smem => 0
  | _ => 0

abbrev bufTy : (tb : Table) → Fin (tcTables nBuf tb) → BufTy
  | .hbm, ⟨0, _⟩ => ⟨S8x32x16x16, .f32⟩
  | .hbm, ⟨1, _⟩ => ⟨S4096, .f32⟩
  | .hbm, ⟨2, _⟩ => ⟨S16, .i32⟩
  | .hbm, ⟨3, _⟩ => ⟨S4096x1, .f32⟩
  | .hbm, ⟨4, _⟩ => ⟨S16, .i32⟩
  | .hbm, ⟨5, _⟩ => ⟨S1x16, .i32⟩
  | .hbm, ⟨6, _⟩ => ⟨S1x16, .f32⟩
  | .hbm, ⟨7, _⟩ => ⟨S1x16, .f32⟩
  | .hbm, ⟨8, _⟩ => ⟨S4096x16, .f32⟩
  | .hbm, ⟨9, _⟩ => ⟨S4096x16, .f32⟩
  | .hbm, ⟨10, _⟩ => ⟨S4096x16, .f32⟩
  | .hbm, ⟨11, _⟩ => ⟨S32x4096x16x16, .f32⟩
  | .local _ .vmem, ⟨0, _⟩ => ⟨S8x1x16x16, .f32⟩
  | .local _ .vmem, ⟨1, _⟩ => ⟨S8x1x16x16, .f32⟩
  | .local _ .vmem, ⟨2, _⟩ => ⟨S512x16, .f32⟩
  | .local _ .vmem, ⟨3, _⟩ => ⟨S512x16, .f32⟩
  | .local _ .vmem, ⟨4, _⟩ => ⟨S1x512x16x16, .f32⟩
  | .local _ .vmem, ⟨5, _⟩ => ⟨S1x512x16x16, .f32⟩
  | _, _ => ⟨S8x32x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x1x16x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S4096_S4096x1_0 : S4096.BroadcastsInDim S4096x1 (![0] : Fin 1 → Fin S4096x1.rank)
  bcast_S16_S1x16_1 : S16.BroadcastsInDim S1x16 (![1] : Fin 1 → Fin S1x16.rank)
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S8x1x16x16_S1x1x16x16_0_0_0_0 : ∀ a, (![0, 0, 0, 0] : Fin 4 → Nat) a + S1x1x16x16.size a ≤ S8x1x16x16.size a
  h_S1x1x16x16 : 0 < S1x1x16x16.numel
  shapeCasts_S1x1x16x16_S16x16 : S1x1x16x16.ShapeCasts S16x16
  shapeCasts_S512x16_S512x16x1 : S512x16.ShapeCasts S512x16x1
  shapeCasts_S16x16_S1x16x16 : S16x16.ShapeCasts S1x16x16
  broadcasts_S512x16x1_S512x16x16 : S512x16x1.Broadcasts S512x16x16
  broadcasts_S1x16x16_S512x16x16 : S1x16x16.Broadcasts S512x16x16
  inb_S8x1x16x16_S1x1x16x16_1_0_0_0 : ∀ a, (![1, 0, 0, 0] : Fin 4 → Nat) a + S1x1x16x16.size a ≤ S8x1x16x16.size a
  bitsLt_bf16_f32 : FTy.bits .bf16 < FTy.bits .f32
  inb_S8x1x16x16_S1x1x16x16_2_0_0_0 : ∀ a, (![2, 0, 0, 0] : Fin 4 → Nat) a + S1x1x16x16.size a ≤ S8x1x16x16.size a
  inb_S8x1x16x16_S1x1x16x16_3_0_0_0 : ∀ a, (![3, 0, 0, 0] : Fin 4 → Nat) a + S1x1x16x16.size a ≤ S8x1x16x16.size a
  inb_S8x1x16x16_S1x1x16x16_4_0_0_0 : ∀ a, (![4, 0, 0, 0] : Fin 4 → Nat) a + S1x1x16x16.size a ≤ S8x1x16x16.size a
  inb_S8x1x16x16_S1x1x16x16_5_0_0_0 : ∀ a, (![5, 0, 0, 0] : Fin 4 → Nat) a + S1x1x16x16.size a ≤ S8x1x16x16.size a
  inb_S8x1x16x16_S1x1x16x16_6_0_0_0 : ∀ a, (![6, 0, 0, 0] : Fin 4 → Nat) a + S1x1x16x16.size a ≤ S8x1x16x16.size a
  inb_S8x1x16x16_S1x1x16x16_7_0_0_0 : ∀ a, (![7, 0, 0, 0] : Fin 4 → Nat) a + S1x1x16x16.size a ≤ S8x1x16x16.size a
  inb_S1x512x16x16_S1x512x16x16_0_0_0_0 : ∀ a, (![0, 0, 0, 0] : Fin 4 → Nat) a + S1x512x16x16.size a ≤ S1x512x16x16.size a
  h_S1x512x16x16 : 0 < S1x512x16x16.numel
  shapeCasts_S1x512x16x16_S512x16x16 : S1x512x16x16.ShapeCasts S512x16x16
  shapeCasts_S512x16x16_S1x512x16x16 : S512x16x16.ShapeCasts S1x512x16x16
  dot_S512x16x16_S512x16x16_S512x16x16_2_1_1_2_0_0_wf : DotDims.WF S512x16x16 S512x16x16 S512x16x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x16x16.size a ≤ S8x32x16x16.size a
  hwx0_0 : ∀ i : grid0.Coords, EltTy.bits .f32 = 32 ∨ (Rect.block (s := S8x32x16x16) S8x1x16x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x16x16.size a ≤ S32x4096x16x16.size a
  hwx0_2 : ∀ i : grid0.Coords, EltTy.bits .f32 = 32 ∨ (Rect.block (s := S32x4096x16x16) S1x512x16x16.size (cc0_transform_2 i) (hinb0_2 i)).WholeWords (EltTy.packing .f32)

variable [Facts₀]

def dot_S512x16x16_S512x16x16_S512x16x16_2_1_1_2_0_0 : DotDims S512x16x16 S512x16x16 S512x16x16 where
  lhsContracting := [2]
  rhsContracting := [1]
  lhsNonContracting := [1]
  rhsNonContracting := [2]
  lhsBatch := [0]
  rhsBatch := [0]
  wf := dot_S512x16x16_S512x16x16_S512x16x16_2_1_1_2_0_0_wf

abbrev win0_0 : Pipeline.Window sig grid0 :=
  Pipeline.Window.ofSpec (Memref.whole main_arg0) S8x1x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x16x16 : Shape := ⟨4, ![8, 32, 16, 16]⟩
abbrev S4096 : Shape := ⟨1, ![4096]⟩
abbrev S16 : Shape := ⟨1, ![16]⟩
abbrev S1x4096x1 : Shape := ⟨3, ![1, 4096, 1]⟩
abbrev S1x1x16 : Shape := ⟨3, ![1, 1, 16]⟩
abbrev S1x4096x16 : Shape := ⟨3, ![1, 4096, 16]⟩
abbrev S1x32x16x16 : Shape := ⟨4, ![1, 32, 16, 16]⟩
abbrev S32x16x16 : Shape := ⟨3, ![32, 16, 16]⟩
abbrev S1x4096x16x1 : Shape := ⟨4, ![1, 4096, 16, 1]⟩
abbrev S32x1x16x16 : Shape := ⟨4, ![32, 1, 16, 16]⟩
abbrev S32x4096x16x16 : Shape := ⟨4, ![32, 4096, 16, 16]⟩

abbrev nBuf : Space → Nat
  | .hbm => 74
  | .vmem => 0
  | .smem => 0
  | _ => 0

abbrev bufTy : (tb : Table) → Fin (tcTables nBuf tb) → BufTy
  | .hbm, ⟨0, _⟩ => ⟨S8x32x16x16, .f32⟩
  | .hbm, ⟨1, _⟩ => ⟨S4096, .f32⟩
  | .hbm, ⟨2, _⟩ => ⟨S16, .i32⟩
  | .hbm, ⟨3, _⟩ => ⟨S1x4096x1, .f32⟩
  | .hbm, ⟨4, _⟩ => ⟨S16, .i32⟩
  | .hbm, ⟨5, _⟩ => ⟨S1x1x16, .i32⟩
  | .hbm, ⟨6, _⟩ => ⟨S1x1x16, .f32⟩
  | .hbm, ⟨7, _⟩ => ⟨S1x1x16, .f32⟩
  | .hbm, ⟨8, _⟩ => ⟨S1x4096x16, .f32⟩
  | .hbm, ⟨9, _⟩ => ⟨S1x4096x16, .f32⟩
  | .hbm, ⟨10, _⟩ => ⟨S1x4096x16, .f32⟩
  | .hbm, ⟨11, _⟩ => ⟨S1x32x16x16, .f32⟩
  | .hbm, ⟨12, _⟩ => ⟨S32x16x16, .f32⟩
  | .hbm, ⟨13, _⟩ => ⟨S1x4096x16x1, .f32⟩
  | .hbm, ⟨14, _⟩ => ⟨S32x1x16x16, .f32⟩
  | .hbm, ⟨15, _⟩ => ⟨S32x4096x16x16, .f32⟩
  | .hbm, ⟨16, _⟩ => ⟨S32x4096x16x16, .f32⟩
  | .hbm, ⟨17, _⟩ => ⟨S32x4096x16x16, .f32⟩
  | .hbm, ⟨18, _⟩ => ⟨S1x32x16x16, .f32⟩
  | .hbm, ⟨19, _⟩ => ⟨S32x16x16, .f32⟩
  | .hbm, ⟨20, _⟩ => ⟨S1x4096x16x1, .f32⟩
  | .hbm, ⟨21, _⟩ => ⟨S32x1x16x16, .f32⟩
  | .hbm, ⟨22, _⟩ => ⟨S32x4096x16x16, .f32⟩
  | .hbm, ⟨23, _⟩ => ⟨S32x4096x16x16, .f32⟩
  | .hbm, ⟨24, _⟩ => ⟨S32x4096x16x16, .f32⟩
  | .hbm, ⟨25, _⟩ => ⟨S32x4096x16x16, .f32⟩
  | .hbm, ⟨26, _⟩ => ⟨S1x32x16x16, .f32⟩
  | .hbm, ⟨27, _⟩ => ⟨S32x16x16, .f32⟩
  | .hbm, ⟨28, _⟩ => ⟨S1x4096x16x1, .f32⟩
  | .hbm, ⟨29, _⟩ => ⟨S32x1x16x16, .f32⟩
  | .hbm, ⟨30, _⟩ => ⟨S32x4096x16x16, .f32⟩
  | .hbm, ⟨31, _⟩ => ⟨S32x4096x16x16, .f32⟩
  | .hbm, ⟨32, _⟩ => ⟨S32x4096x16x16, .f32⟩
  | .hbm, ⟨33, _⟩ => ⟨S32x4096x16x16, .f32⟩
  | .hbm, ⟨34, _⟩ => ⟨S1x32x16x16, .f32⟩
  | .hbm, ⟨35, _⟩ => ⟨S32x16x16, .f32⟩
  | .hbm, ⟨36, _⟩ => ⟨S1x4096x16x1, .f32⟩
  | .hbm, ⟨37, _⟩ => ⟨S32x1x16x16, .f32⟩
  | .hbm, ⟨38, _⟩ => ⟨S32x4096x16x16, .f32⟩
  | .hbm, ⟨39, _⟩ => ⟨S32x4096x16x16, .f32⟩
  | .hbm, ⟨40, _⟩ => ⟨S32x4096x16x16, .f32⟩
  | .hbm, ⟨41, _⟩ => ⟨S32x4096x16x16, .f32⟩
  | .hbm, ⟨42, _⟩ => ⟨S1x32x16x16, .f32⟩
  | .hbm, ⟨43, _⟩ => ⟨S32x16x16, .f32⟩
  | .hbm, ⟨44, _⟩ => ⟨S1x4096x16x1, .f32⟩
  | .hbm, ⟨45, _⟩ => ⟨S32x1x16x16, .f32⟩
  | .hbm, ⟨46, _⟩ => ⟨S32x4096x16x16, .f32⟩
  | .hbm, ⟨47, _⟩ => ⟨S32x4096x16x16, .f32⟩
  | .hbm, ⟨48, _⟩ => ⟨S32x4096x16x16, .f32⟩
  | .hbm, ⟨49, _⟩ => ⟨S32x4096x16x16, .f32⟩
  | .hbm, ⟨50, _⟩ => ⟨S1x32x16x16, .f32⟩
  | .hbm, ⟨51, _⟩ => ⟨S32x16x16, .f32⟩
  | .hbm, ⟨52, _⟩ => ⟨S1x4096x16x1, .f32⟩
  | .hbm, ⟨53, _⟩ => ⟨S32x1x16x16, .f32⟩
  | .hbm, ⟨54, _⟩ => ⟨S32x4096x16x16, .f32⟩
  | .hbm, ⟨55, _⟩ => ⟨S32x4096x16x16, .f32⟩
  | .hbm, ⟨56, _⟩ => ⟨S32x4096x16x16, .f32⟩
  | .hbm, ⟨57, _⟩ => ⟨S32x4096x16x16, .f32⟩
  | .hbm, ⟨58, _⟩ => ⟨S1x32x16x16, .f32⟩
  | .hbm, ⟨59, _⟩ => ⟨S32x16x16, .f32⟩
  | .hbm, ⟨60, _⟩ => ⟨S1x4096x16x1, .f32⟩
  | .hbm, ⟨61, _⟩ => ⟨S32x1x16x16, .f32⟩
  | .hbm, ⟨62, _⟩ => ⟨S32x4096x16x16, .f32⟩
  | .hbm, ⟨63, _⟩ => ⟨S32x4096x16x16, .f32⟩
  | .hbm, ⟨64, _⟩ => ⟨S32x4096x16x16, .f32⟩
  | .hbm, ⟨65, _⟩ => ⟨S32x4096x16x16, .f32⟩
  | .hbm, ⟨66, _⟩ => ⟨S1x32x16x16, .f32⟩
  | .hbm, ⟨67, _⟩ => ⟨S32x16x16, .f32⟩
  | .hbm, ⟨68, _⟩ => ⟨S1x4096x16x1, .f32⟩
  | .hbm, ⟨69, _⟩ => ⟨S32x1x16x16, .f32⟩
  | .hbm, ⟨70, _⟩ => ⟨S32x4096x16x16, .f32⟩
  | .hbm, ⟨71, _⟩ => ⟨S32x4096x16x16, .f32⟩
  | .hbm, ⟨72, _⟩ => ⟨S32x4096x16x16, .f32⟩
  | .hbm, ⟨73, _⟩ => ⟨S32x4096x16x16, .f32⟩
  | _, _ => ⟨S8x32x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩

abbrev nD : Nat := 1
abbrev τ : Topo := Topo.v7x

variable {F : FTy → Type} [FloatOps F]

class Facts₀ : Prop where
  bcast_S4096_S1x4096x1_1 : S4096.BroadcastsInDim S1x4096x1 (![1] : Fin 1 → Fin S1x4096x1.rank)
  bcast_S16_S1x1x16_2 : S16.BroadcastsInDim S1x1x16 (![2] : Fin 1 → Fin S1x1x16.rank)
  bcast_S1x4096x1_S1x4096x16_0_1_2 : S1x4096x1.BroadcastsInDim S1x4096x16 (![0, 1, 2] : Fin 3 → Fin S1x4096x16.rank)
  bcast_S1x1x16_S1x4096x16_0_1_2 : S1x1x16.BroadcastsInDim S1x4096x16 (![0, 1, 2] : Fin 3 → Fin S1x4096x16.rank)
  slices_S8x32x16x16_S1x32x16x16_0_0_0_0 : S8x32x16x16.Slices ![0, 0, 0, 0] S1x32x16x16
  shapeCasts_S1x32x16x16_S32x16x16 : S1x32x16x16.ShapeCasts S32x16x16
  bcast_S1x4096x16_S1x4096x16x1_0_1_2 : S1x4096x16.BroadcastsInDim S1x4096x16x1 (![0, 1, 2] : Fin 3 → Fin S1x4096x16x1.rank)
  bcast_S32x16x16_S32x1x16x16_0_2_3 : S32x16x16.BroadcastsInDim S32x1x16x16 (![0, 2, 3] : Fin 3 → Fin S32x1x16x16.rank)
  bcast_S1x4096x16x1_S32x4096x16x16_0_1_2_3 : S1x4096x16x1.BroadcastsInDim S32x4096x16x16 (![0, 1, 2, 3] : Fin 4 → Fin S32x4096x16x16.rank)
  bcast_S32x1x16x16_S32x4096x16x16_0_1_2_3 : S32x1x16x16.BroadcastsInDim S32x4096x16x16 (![0, 1, 2, 3] : Fin 4 → Fin S32x4096x16x16.rank)
  slices_S8x32x16x16_S1x32x16x16_1_0_0_0 : S8x32x16x16.Slices ![1, 0, 0, 0] S1x32x16x16
  slices_S8x32x16x16_S1x32x16x16_2_0_0_0 : S8x32x16x16.Slices ![2, 0, 0, 0] S1x32x16x16
  slices_S8x32x16x16_S1x32x16x16_3_0_0_0 : S8x32x16x16.Slices ![3, 0, 0, 0] S1x32x16x16
  slices_S8x32x16x16_S1x32x16x16_4_0_0_0 : S8x32x16x16.Slices ![4, 0, 0, 0] S1x32x16x16
  slices_S8x32x16x16_S1x32x16x16_5_0_0_0 : S8x32x16x16.Slices ![5, 0, 0, 0] S1x32x16x16
  slices_S8x32x16x16_S1x32x16x16_6_0_0_0 : S8x32x16x16.Slices ![6, 0, 0, 0] S1x32x16x16
  slices_S8x32x16x16_S1x32x16x16_7_0_0_0 : S8x32x16x16.Slices ![7, 0, 0, 0] S1x32x16x16
  dot_S32x4096x16x16_S32x4096x16x16_S32x4096x16x16_3_2_2_3_01_01_wf : DotDims.WF S32x4096x16x16 S32x4096x16x16 S32x4096x16x16 [3] [2] [2] [3] [0, 1] [0, 1]

variable [Facts₀]

def dot_S32x4096x16x16_S32x4096x16x16_S32x4096x16x16_3_2_2_3_01_01 : DotDims S32x4096x16x16 S32x4096x16x16 S32x4096x16x16 where
  lhsContracting := [3]
  rhsContracting := [2]
  lhsNonContracting := [2]
  rhsNonContracting := [3]
  lhsBatch := [0, 1]
  rhsBatch := [0, 1]
  wf := dot_S32x4096x16x16_S32x4096x16x16_S32x4096x16x16_3_2_2_3_01_01_wf

class Facts : Prop extends Facts₀ where

variable [Facts]
-- ==== Proof.ChainSpec.lean ====
/-
  The mathematics both programs compute, stated once over the extended reals.

  For a batch element b and a frequency f, eight 16×16 matrices
      S_k(i,j) = d(f,i) · U(k,b,i,j),          d(f,i) = z_f ^ (−m_i),
  (the rows of the k-th stage matrix scaled by the table d) are multiplied from left to right:
      P_0 = S_0,     P_k(i,l) = Σ_j P_{k−1}(i,j) · S_k(j,l),
  and the result at (b,f,i,l) is P_7(i,l).  Both programs form exactly these sums of exactly these
  products in exactly this nesting, so they are compared by congruence alone: no law of the extended
  reals (distributivity, cancellation) and hence no finiteness of the inputs is ever used.
-/
import Idealize.ShloMosaic.PureOps.Ideal
import Idealize.ShloMosaic.Lib.ValueIdx

noncomputable section

namespace Cert.Chain

open Idealize.ShloMosaic Idealize.ShloMosaic.ValueIdx

/-- One product of 16×16 matrices over the extended reals: (A · S)(i,l) = Σ_j A(i,j) · S(j,l). -/
def step (A S : Fin 16 → Fin 16 → EReal) : Fin 16 → Fin 16 → EReal :=
  fun i l => ∑ j : Fin 16, A i j * S j l

/-- Eight factors multiplied from left to right: ((((((S₀·S₁)·S₂)·S₃)·S₄)·S₅)·S₆)·S₇. -/
def prod8 (S : Fin 8 → Fin 16 → Fin 16 → EReal) : Fin 16 → Fin 16 → EReal :=
  step (step (step (step (step (step (step (S 0) (S 1)) (S 2)) (S 3)) (S 4)) (S 5)) (S 6)) (S 7)

/-- The product depends on its factors only through their entries. -/
theorem prod8_congr {S S' : Fin 8 → Fin 16 → Fin 16 → EReal} (h : ∀ k i j, S k i j = S' k i j) :
    prod8 S = prod8 S' := by
  have e : S = S' := funext fun k => funext fun i => funext fun j => h k i j
  rw [e]

/-- The stage matrices U[8, 32, 16, 16], the scale table d[4096, 16], and the result [32, 4096, 16, 16]. -/
abbrev ShU : Shape := ⟨4, ![8, 32, 16, 16]⟩
abbrev ShD : Shape := ⟨2, ![4096, 16]⟩
abbrev ShOut : Shape := ⟨4, ![32, 4096, 16, 16]⟩

/-- The row-scale table d(f,i) = z_f ^ (−m_i): the host's power of z_f to the integer −m_i read as a real
    (the negation is the 32-bit word's, as both programs compute it). -/
def scaleTable (z : (⟨1, ![4096]⟩ : Shape).Idx → EReal) (m : (⟨1, ![16]⟩ : Shape).Idx → BitVec 32) :
    ShD.Idx → EReal :=
  fun j => FloatOps.hostPowf (F := Ideal) (φ := .f32) (z (ix1 (j 0)))
    (FloatOps.sitofp (F := Ideal) .f32 (-(m (ix1 (j 1)))))

/-- The table at explicit coordinates. -/
theorem scaleTable_ix2 (z : (⟨1, ![4096]⟩ : Shape).Idx → EReal) (m : (⟨1, ![16]⟩ : Shape).Idx → BitVec 32)
    (f : Fin 4096) (i : Fin 16) :
    scaleTable z m (ix2 f i) = FloatOps.hostPowf (F := Ideal) (φ := .f32) (z (ix1 f))
      (FloatOps.sitofp (F := Ideal) .f32 (-(m (ix1 i)))) := rfl

/-- The result at batch b, frequency f, row p, column q: the (p,q) entry of the product of the eight
    row-scaled stage matrices of b at f. -/
def chainAt (U : ShU.Idx → EReal) (d : ShD.Idx → EReal) (b : Fin 32) (f : Fin 4096) (p q : Fin 16) : EReal :=
  prod8 (fun k i j => d (ix2 f i) * U (ix4 k b i j)) p q

/-- The whole result array as one function of the stage matrices and the scale table. -/
def chain (U : ShU.Idx → EReal) (d : ShD.Idx → EReal) : ShOut.Idx → EReal :=
  fun i => chainAt U d (i 0) (i 1) (i 2) (i 3)

theorem chain_ix4 (U : ShU.Idx → EReal) (d : ShD.Idx → EReal) (b : Fin 32) (f : Fin 4096) (p q : Fin 16) :
    chain U d (ix4 b f p q) = chainAt U d b f p q := rfl

end Cert.Chain

end
-- ==== Proof.RefChain.lean ====
/-
  The reference program read onto the chain of products (ChainSpec.lean).

  The reference builds, for each k, the array T_k(b,f,i,j) = d(f,i) · U(k,b,i,j) by slicing the k-th stage
  matrix, dropping the unit axis and broadcasting both factors to [32, 4096, 16, 16]; it then multiplies
  T_0 … T_7 from left to right with a batched product over (b,f) that contracts the last axis of the left
  factor with the third axis of the right one.  Read at (b,f,p,q) each product is Σ_j L(b,f,p,j) · R(b,f,j,q):
  one step of the chain on the 16×16 matrices that L and R hold at (b,f).
-/
import proofs.«133188_j21079699489095_1_alg».proof.Proof.Gen.ReferenceIdeal.Read
import proofs.«133188_j21079699489095_1_alg».proof.Proof.ChainSpec
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Chain

/-- The 16×16 matrix a [32, 4096, 16, 16] array holds at batch b and frequency f. -/
def mat4 (X : S32x4096x16x16.Idx → EReal) (b : Fin 32) (f : Fin 4096) : Fin 16 → Fin 16 → EReal :=
  fun p q => X (ix4 b f p q)

/-- The batched product of the reference read at (b,f,p,q): the sum over the contracted index j of the left
    factor at (b,f,p,j) times the right factor at (b,f,j,q). -/
theorem dot_read (A B : FVec Ideal S32x4096x16x16 .f32) (b : Fin 32) (f : Fin 4096) (p q : Fin 16) :
    Host.dotGeneral dot_S32x4096x16x16_S32x4096x16x16_S32x4096x16x16_3_2_2_3_01_01 none A B (ix4 b f p q) = ∑ j : Fin 16, A (ix4 b f p j) * B (ix4 b f j q) := by
  simp only [Host.dotGeneral]
  rw [Ideal.dotGeneral_apply, ← Equiv.sum_comp (ValueIdx.contrEquiv1 dot_S32x4096x16x16_S32x4096x16x16_S32x4096x16x16_3_2_2_3_01_01 16 rfl rfl).symm]
  refine Finset.sum_congr rfl fun k _ => ?_
  have hk := ValueIdx.contrEquiv1_symm_val dot_S32x4096x16x16_S32x4096x16x16_S32x4096x16x16_3_2_2_3_01_01 16 rfl rfl k
  have el : dot_S32x4096x16x16_S32x4096x16x16_S32x4096x16x16_3_2_2_3_01_01.lhsIdx (ix4 b f p q) ((ValueIdx.contrEquiv1 dot_S32x4096x16x16_S32x4096x16x16_S32x4096x16x16_3_2_2_3_01_01 16 rfl rfl).symm k) = ix4 b f p k :=
    funext fun a => Fin.ext (by
      match a with
      | ⟨0, _⟩ => exact lhs_main_v22_0 _ _
      | ⟨1, _⟩ => exact lhs_main_v22_1 _ _
      | ⟨2, _⟩ => exact lhs_main_v22_2 _ _
      | ⟨3, _⟩ => exact (lhs_main_v22_3 _ _).trans hk)
  have er : dot_S32x4096x16x16_S32x4096x16x16_S32x4096x16x16_3_2_2_3_01_01.rhsIdx (ix4 b f p q) ((ValueIdx.contrEquiv1 dot_S32x4096x16x16_S32x4096x16x16_S32x4096x16x16_3_2_2_3_01_01 16 rfl rfl).symm k) = ix4 b f k q :=
    funext fun a => Fin.ext (by
      match a with
      | ⟨0, _⟩ => exact rhs_main_v22_0 _ _
      | ⟨1, _⟩ => exact rhs_main_v22_1 _ _
      | ⟨2, _⟩ => exact (rhs_main_v22_2 _ _).trans hk
      | ⟨3, _⟩ => exact rhs_main_v22_3 _ _)
  rw [el, er]

/-- So the matrix the product holds at (b,f) is one step of the chain on the matrices its factors hold there. -/
theorem mat4_dot (A B : FVec Ideal S32x4096x16x16 .f32) (b : Fin 32) (f : Fin 4096) :
    mat4 (Host.dotGeneral dot_S32x4096x16x16_S32x4096x16x16_S32x4096x16x16_3_2_2_3_01_01 none A B) b f = step (mat4 A b f) (mat4 B b f) :=
  funext fun p => funext fun q => dot_read A B b f p q

/-! ## A row-scaled stage matrix -/

/-- A row-scaled stage matrix of the reference read at (b,f,p,j): the table entry at (f,p), broadcast along the
    batch and the column, times the entry (k,b,p,j) of the k-th stage matrix, sliced out of U, stripped of its unit
    axis and broadcast along the frequency.  Stated for a table `dd` and a slice offset `off` = (k,0,0,0). -/
theorem scaled_read (off : Fin S8x32x16x16.rank → Nat) (hs : S8x32x16x16.Slices off S1x32x16x16) (k : Fin 8)
    (hoff : off = ![k.val, 0, 0, 0]) (x0 : FVec Ideal S8x32x16x16 .f32) (dd : FVec Ideal S1x4096x16 .f32)
    (b : Fin 32) (f : Fin 4096) (p j : Fin 16) :
    mulf (broadcastInDim S32x4096x16x16 ![0, 1, 2, 3] bcast_S1x4096x16x1_S32x4096x16x16_0_1_2_3
            (broadcastInDim S1x4096x16x1 ![0, 1, 2] bcast_S1x4096x16_S1x4096x16x1_0_1_2 dd))
         (broadcastInDim S32x4096x16x16 ![0, 1, 2, 3] bcast_S32x1x16x16_S32x4096x16x16_0_1_2_3
            (broadcastInDim S32x1x16x16 ![0, 2, 3] bcast_S32x16x16_S32x1x16x16_0_2_3
              (shapeCast S32x16x16 (extractStridedSlice S1x32x16x16 off x0 hs) shapeCasts_S1x32x16x16_S32x16x16)))
      (ix4 b f p j)
    = dd (ix3 (0 : Fin 1) f p) * x0 (ix4 k b p j) := by
  subst hoff
  rw [ValueIdx.mulf_apply]
  have hd : (broadcastInDim S32x4096x16x16 ![0, 1, 2, 3] bcast_S1x4096x16x1_S32x4096x16x16_0_1_2_3
      (broadcastInDim S1x4096x16x1 ![0, 1, 2] bcast_S1x4096x16_S1x4096x16x1_0_1_2 dd)) (ix4 b f p j)
      = dd (ix3 (0 : Fin 1) f p) := by
    refine (broadcastInDim_apply _ bcast_S1x4096x16x1_S32x4096x16x16_0_1_2_3 _ (ix4 b f p j)
      (ix4 (0 : Fin 1) f p (0 : Fin 1)) (fun a => ?_)).trans
      (broadcastInDim_apply _ bcast_S1x4096x16_S1x4096x16x1_0_1_2 dd (ix4 (0 : Fin 1) f p (0 : Fin 1))
        (ix3 (0 : Fin 1) f p) (fun a => ?_))
    · match a with
      | ⟨0, _⟩ => show 0 = if (1 : Nat) = 1 then 0 else b.val; rw [if_pos rfl]
      | ⟨1, _⟩ => show f.val = if (4096 : Nat) = 1 then 0 else f.val; rw [if_neg (by decide)]
      | ⟨2, _⟩ => show p.val = if (16 : Nat) = 1 then 0 else p.val; rw [if_neg (by decide)]
      | ⟨3, _⟩ => show 0 = if (1 : Nat) = 1 then 0 else j.val; rw [if_pos rfl]
    · match a with
      | ⟨0, _⟩ => show 0 = if (1 : Nat) = 1 then 0 else 0; rw [if_pos rfl]
      | ⟨1, _⟩ => show f.val = if (4096 : Nat) = 1 then 0 else f.val; rw [if_neg (by decide)]
      | ⟨2, _⟩ => show p.val = if (16 : Nat) = 1 then 0 else p.val; rw [if_neg (by decide)]
  have hu : (broadcastInDim S32x4096x16x16 ![0, 1, 2, 3] bcast_S32x1x16x16_S32x4096x16x16_0_1_2_3
      (broadcastInDim S32x1x16x16 ![0, 2, 3] bcast_S32x16x16_S32x1x16x16_0_2_3
        (shapeCast S32x16x16 (extractStridedSlice S1x32x16x16 ![k.val, 0, 0, 0] x0 hs) shapeCasts_S1x32x16x16_S32x16x16)))
      (ix4 b f p j) = x0 (ix4 k b p j) := by
    refine (broadcastInDim_apply _ bcast_S32x1x16x16_S32x4096x16x16_0_1_2_3 _ (ix4 b f p j)
      (ix4 b (0 : Fin 1) p j) (fun a => ?_)).trans
      ((broadcastInDim_apply _ bcast_S32x16x16_S32x1x16x16_0_2_3 _ (ix4 b (0 : Fin 1) p j)
        (ix3 b p j) (fun a => ?_)).trans
      ((shapeCast_1abc_abc_apply _ shapeCasts_S1x32x16x16_S32x16x16 b p j).trans
        (extractStridedSlice_apply ![k.val, 0, 0, 0] x0 hs (ix4 (0 : Fin 1) b p j) (ix4 k b p j) (fun a => ?_))))
    · match a with
      | ⟨0, _⟩ => show b.val = if (32 : Nat) = 1 then 0 else b.val; rw [if_neg (by decide)]
      | ⟨1, _⟩ => show 0 = if (1 : Nat) = 1 then 0 else f.val; rw [if_pos rfl]
      | ⟨2, _⟩ => show p.val = if (16 : Nat) = 1 then 0 else p.val; rw [if_neg (by decide)]
      | ⟨3, _⟩ => show j.val = if (16 : Nat) = 1 then 0 else j.val; rw [if_neg (by decide)]
    · match a with
      | ⟨0, _⟩ => show b.val = if (32 : Nat) = 1 then 0 else b.val; rw [if_neg (by decide)]
      | ⟨1, _⟩ => show p.val = if (16 : Nat) = 1 then 0 else p.val; rw [if_neg (by decide)]
      | ⟨2, _⟩ => show j.val = if (16 : Nat) = 1 then 0 else j.val; rw [if_neg (by decide)]
    · match a with
      | ⟨0, _⟩ => show k.val = k.val + 0; omega
      | ⟨1, _⟩ => show b.val = 0 + b.val; omega
      | ⟨2, _⟩ => show p.val = 0 + p.val; omega
      | ⟨3, _⟩ => show j.val = 0 + j.val; omega
  rw [hd, hu]

/-! ## The reference's operations, level by level -/

variable (x0 : (⟨S8x32x16x16, .f32⟩ : BufTy).Contents (Elt Ideal)) (x1 : (⟨S4096, .f32⟩ : BufTy).Contents (Elt Ideal))
  (x2 : (⟨S16, .i32⟩ : BufTy).Contents (Elt Ideal))

/-- The reference's table z ^ (−m), held as a [1, 4096, 16] array, is the scale table. -/
theorem scale_read (f : Fin 4096) (i : Fin 16) :
    val_main_v7 (F := Ideal) x1 x2 (ix3 (0 : Fin 1) f i) = scaleTable x1 x2 (ix2 f i) := by
  rw [val_main_v7_apply, val_main_v5_apply, val_main_v0_apply, val_main_v6_apply, val_main_v4_apply,
    val_main_v2_apply, val_main_v1_apply]
  have e1 : idx_main_v0 (idx_main_v5 (ix3 (0 : Fin 1) f i)) = ix1 f :=
    funext fun a => by match a with | ⟨0, _⟩ => rfl
  have e2 : idx_main_v2 (idx_main_v6 (ix3 (0 : Fin 1) f i)) = ix1 i :=
    funext fun a => by match a with | ⟨0, _⟩ => rfl
  rw [e1, e2]
  rfl

/-- The k-th row-scaled stage matrix at (b,f): S_k(i,j) = d(f,i) · U(k,b,i,j). -/
def scaledMat (k : Fin 8) (b : Fin 32) (f : Fin 4096) : Fin 16 → Fin 16 → EReal :=
  fun i j => scaleTable x1 x2 (ix2 f i) * x0 (ix4 k b i j)

/-- Each of the reference's eight scaled arrays holds the row-scaled stage matrix at (b,f). -/
theorem scaled0 (b : Fin 32) (f : Fin 4096) : mat4 (val_main_v14 (F := Ideal) x0 x1 x2) b f = scaledMat x0 x1 x2 0 b f :=
  funext fun i => funext fun j => (scaled_read ![0, 0, 0, 0] slices_S8x32x16x16_S1x32x16x16_0_0_0_0 0 rfl x0 (val_main_v7 (F := Ideal) x1 x2) b f i j).trans (by rw [scale_read]; rfl)
theorem scaled1 (b : Fin 32) (f : Fin 4096) : mat4 (val_main_v21 (F := Ideal) x0 x1 x2) b f = scaledMat x0 x1 x2 1 b f :=
  funext fun i => funext fun j => (scaled_read ![1, 0, 0, 0] slices_S8x32x16x16_S1x32x16x16_1_0_0_0 1 rfl x0 (val_main_v7 (F := Ideal) x1 x2) b f i j).trans (by rw [scale_read]; rfl)
theorem scaled2 (b : Fin 32) (f : Fin 4096) : mat4 (val_main_v29 (F := Ideal) x0 x1 x2) b f = scaledMat x0 x1 x2 2 b f :=
  funext fun i => funext fun j => (scaled_read ![2, 0, 0, 0] slices_S8x32x16x16_S1x32x16x16_2_0_0_0 2 rfl x0 (val_main_v7 (F := Ideal) x1 x2) b f i j).trans (by rw [scale_read]; rfl)
theorem scaled3 (b : Fin 32) (f : Fin 4096) : mat4 (val_main_v37 (F := Ideal) x0 x1 x2) b f = scaledMat x0 x1 x2 3 b f :=
  funext fun i => funext fun j => (scaled_read ![3, 0, 0, 0] slices_S8x32x16x16_S1x32x16x16_3_0_0_0 3 rfl x0 (val_main_v7 (F := Ideal) x1 x2) b f i j).trans (by rw [scale_read]; rfl)
theorem scaled4 (b : Fin 32) (f : Fin 4096) : mat4 (val_main_v45 (F := Ideal) x0 x1 x2) b f = scaledMat x0 x1 x2 4 b f :=
  funext fun i => funext fun j => (scaled_read ![4, 0, 0, 0] slices_S8x32x16x16_S1x32x16x16_4_0_0_0 4 rfl x0 (val_main_v7 (F := Ideal) x1 x2) b f i j).trans (by rw [scale_read]; rfl)
theorem scaled5 (b : Fin 32) (f : Fin 4096) : mat4 (val_main_v53 (F := Ideal) x0 x1 x2) b f = scaledMat x0 x1 x2 5 b f :=
  funext fun i => funext fun j => (scaled_read ![5, 0, 0, 0] slices_S8x32x16x16_S1x32x16x16_5_0_0_0 5 rfl x0 (val_main_v7 (F := Ideal) x1 x2) b f i j).trans (by rw [scale_read]; rfl)
theorem scaled6 (b : Fin 32) (f : Fin 4096) : mat4 (val_main_v61 (F := Ideal) x0 x1 x2) b f = scaledMat x0 x1 x2 6 b f :=
  funext fun i => funext fun j => (scaled_read ![6, 0, 0, 0] slices_S8x32x16x16_S1x32x16x16_6_0_0_0 6 rfl x0 (val_main_v7 (F := Ideal) x1 x2) b f i j).trans (by rw [scale_read]; rfl)
theorem scaled7 (b : Fin 32) (f : Fin 4096) : mat4 (val_main_v69 (F := Ideal) x0 x1 x2) b f = scaledMat x0 x1 x2 7 b f :=
  funext fun i => funext fun j => (scaled_read ![7, 0, 0, 0] slices_S8x32x16x16_S1x32x16x16_7_0_0_0 7 rfl x0 (val_main_v7 (F := Ideal) x1 x2) b f i j).trans (by rw [scale_read]; rfl)

/-- Each of the reference's seven products is one step of the chain at (b,f). -/
theorem level1 (b : Fin 32) (f : Fin 4096) : mat4 (val_main_v22 (F := Ideal) x0 x1 x2) b f
    = step (mat4 (val_main_v14 (F := Ideal) x0 x1 x2) b f) (mat4 (val_main_v21 (F := Ideal) x0 x1 x2) b f) := mat4_dot _ _ b f
theorem level2 (b : Fin 32) (f : Fin 4096) : mat4 (val_main_v30 (F := Ideal) x0 x1 x2) b f
    = step (mat4 (val_main_v22 (F := Ideal) x0 x1 x2) b f) (mat4 (val_main_v29 (F := Ideal) x0 x1 x2) b f) := mat4_dot _ _ b f
theorem level3 (b : Fin 32) (f : Fin 4096) : mat4 (val_main_v38 (F := Ideal) x0 x1 x2) b f
    = step (mat4 (val_main_v30 (F := Ideal) x0 x1 x2) b f) (mat4 (val_main_v37 (F := Ideal) x0 x1 x2) b f) := mat4_dot _ _ b f
theorem level4 (b : Fin 32) (f : Fin 4096) : mat4 (val_main_v46 (F := Ideal) x0 x1 x2) b f
    = step (mat4 (val_main_v38 (F := Ideal) x0 x1 x2) b f) (mat4 (val_main_v45 (F := Ideal) x0 x1 x2) b f) := mat4_dot _ _ b f
theorem level5 (b : Fin 32) (f : Fin 4096) : mat4 (val_main_v54 (F := Ideal) x0 x1 x2) b f
    = step (mat4 (val_main_v46 (F := Ideal) x0 x1 x2) b f) (mat4 (val_main_v53 (F := Ideal) x0 x1 x2) b f) := mat4_dot _ _ b f
theorem level6 (b : Fin 32) (f : Fin 4096) : mat4 (val_main_v62 (F := Ideal) x0 x1 x2) b f
    = step (mat4 (val_main_v54 (F := Ideal) x0 x1 x2) b f) (mat4 (val_main_v61 (F := Ideal) x0 x1 x2) b f) := mat4_dot _ _ b f
theorem level7 (b : Fin 32) (f : Fin 4096) : mat4 (val_main_v70 (F := Ideal) x0 x1 x2) b f
    = step (mat4 (val_main_v62 (F := Ideal) x0 x1 x2) b f) (mat4 (val_main_v69 (F := Ideal) x0 x1 x2) b f) := mat4_dot _ _ b f

/-- The reference's result holds, at (b,f), the product of the eight row-scaled stage matrices. -/
theorem result_mat (b : Fin 32) (f : Fin 4096) :
    mat4 (val_main_v70 (F := Ideal) x0 x1 x2) b f = prod8 (fun k => scaledMat x0 x1 x2 k b f) := by
  rw [level7, level6, level5, level4, level3, level2, level1, scaled0, scaled1, scaled2, scaled3, scaled4,
    scaled5, scaled6, scaled7]
  rfl

/-- The reference's result array is the chain of the stage matrices and the scale table, index by index. -/
theorem result_eq : val_main_v70 (F := Ideal) x0 x1 x2 = chain x0 (scaleTable x1 x2) := by
  funext i
  obtain ⟨b, f, p, q, rfl⟩ : ∃ (b : Fin 32) (f : Fin 4096) (p q : Fin 16), i = ix4 b f p q :=
    ⟨i 0, i 1, i 2, i 3, eq_ix4 i⟩
  exact congrFun (congrFun (result_mat x0 x1 x2 b f) p) q

end Cert.ReferenceIdeal.RefValue

end
-- ==== Proof.KernelChain.lean ====
/-
  The kernel body's arithmetic read onto the chain of products (ChainSpec.lean).

  At a grid point the body holds the table's block d[512, 16] (512 consecutive frequencies) and the eight stage
  matrices of one batch element.  For each k it forms S_k(f,i,j) = d(f,i) · U_k(i,j) by adding a unit axis to each
  factor and broadcasting, rounds to bf16 (the identity on the extended reals) and multiplies, batched over f,
  into a zero accumulator: (A · S)(f,p,q) = Σ_j A(f,p,j) · S(f,j,q).  At a fixed f this is one step of the chain on
  the 16×16 matrices the operands hold at f.
-/
import proofs.«133188_j21079699489095_1_alg».proof.Proof.Gen.KernelIdeal.Skeleton
import proofs.«133188_j21079699489095_1_alg».proof.Proof.ChainSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Cert.KernelIdeal Cert.KernelIdeal.Gen
open Idealize.ShloMosaic Idealize.ShloMosaic.TcCoe Idealize.ShloMosaic.ValueIdx
open Cert.Chain

/-- The 16×16 matrix a [512, 16, 16] vector holds at the block's frequency f. -/
def mat3 (X : S512x16x16.Idx → EReal) (f : Fin 512) : Fin 16 → Fin 16 → EReal :=
  fun p q => X (ix3 f p q)

/-! ## The batched product: which operand entries meet at an output index -/

theorem lhs_axis0 (i : S512x16x16.Idx) (q : dot_S512x16x16_S512x16x16_S512x16x16_2_1_1_2_0_0.contr.Idx) :
    (dot_S512x16x16_S512x16x16_S512x16x16_2_1_1_2_0_0.lhsIdx i q 0).val = (i 0).val := by
  unfold DotDims.lhsIdx
  rw [dif_pos (show (0 : Fin S512x16x16.rank) ∈ dot_S512x16x16_S512x16x16_S512x16x16_2_1_1_2_0_0.lhsBatch by decide)]
  rfl
theorem lhs_axis1 (i : S512x16x16.Idx) (q : dot_S512x16x16_S512x16x16_S512x16x16_2_1_1_2_0_0.contr.Idx) :
    (dot_S512x16x16_S512x16x16_S512x16x16_2_1_1_2_0_0.lhsIdx i q 1).val = (i 1).val := by
  unfold DotDims.lhsIdx
  rw [dif_neg (show ¬(1 : Fin S512x16x16.rank) ∈ dot_S512x16x16_S512x16x16_S512x16x16_2_1_1_2_0_0.lhsBatch by decide), dif_pos (show (1 : Fin S512x16x16.rank) ∈ dot_S512x16x16_S512x16x16_S512x16x16_2_1_1_2_0_0.lhsNonContracting by decide)]
  rfl
theorem lhs_axis2 (i : S512x16x16.Idx) (q : dot_S512x16x16_S512x16x16_S512x16x16_2_1_1_2_0_0.contr.Idx) :
    (dot_S512x16x16_S512x16x16_S512x16x16_2_1_1_2_0_0.lhsIdx i q 2).val = (q ⟨0, by decide⟩).val :=
  dot_S512x16x16_S512x16x16_S512x16x16_2_1_1_2_0_0.lhsIdx_val_of_single rfl i q
theorem rhs_axis0 (i : S512x16x16.Idx) (q : dot_S512x16x16_S512x16x16_S512x16x16_2_1_1_2_0_0.contr.Idx) :
    (dot_S512x16x16_S512x16x16_S512x16x16_2_1_1_2_0_0.rhsIdx i q 0).val = (i 0).val := by
  unfold DotDims.rhsIdx
  rw [dif_pos (show (0 : Fin S512x16x16.rank) ∈ dot_S512x16x16_S512x16x16_S512x16x16_2_1_1_2_0_0.rhsBatch by decide)]
  rfl
theorem rhs_axis1 (i : S512x16x16.Idx) (q : dot_S512x16x16_S512x16x16_S512x16x16_2_1_1_2_0_0.contr.Idx) :
    (dot_S512x16x16_S512x16x16_S512x16x16_2_1_1_2_0_0.rhsIdx i q 1).val = (q ⟨0, by decide⟩).val :=
  dot_S512x16x16_S512x16x16_S512x16x16_2_1_1_2_0_0.rhsIdx_val_of_single rfl i q
theorem rhs_axis2 (i : S512x16x16.Idx) (q : dot_S512x16x16_S512x16x16_S512x16x16_2_1_1_2_0_0.contr.Idx) :
    (dot_S512x16x16_S512x16x16_S512x16x16_2_1_1_2_0_0.rhsIdx i q 2).val = (i 2).val := by
  unfold DotDims.rhsIdx
  rw [dif_neg (show ¬(2 : Fin S512x16x16.rank) ∈ dot_S512x16x16_S512x16x16_S512x16x16_2_1_1_2_0_0.rhsBatch by decide), dif_pos (show (2 : Fin S512x16x16.rank) ∈ dot_S512x16x16_S512x16x16_S512x16x16_2_1_1_2_0_0.rhsNonContracting by decide)]
  rfl

/-- The kernel's batched product into the zero accumulator, read at (f,p,q): the sum over the contracted index j
    of the left operand at (f,p,j) times the right operand at (f,j,q). -/
theorem matmul_read (A B : FVec Ideal S512x16x16 .bf16) (f : Fin 512) (p q : Fin 16) :
    matmul dot_S512x16x16_S512x16x16_S512x16x16_2_1_1_2_0_0 none A B (constant S512x16x16 .f32 0x00000000#32) (ix3 f p q)
      = ∑ j : Fin 16, A (ix3 f p j) * B (ix3 f j q) := by
  show FloatOps.matmul dot_S512x16x16_S512x16x16_S512x16x16_2_1_1_2_0_0 none A B (constant S512x16x16 .f32 0x00000000#32) (ix3 f p q) = _
  rw [Ideal.matmul_constant_zero_apply, ← Equiv.sum_comp (ValueIdx.contrEquiv1 dot_S512x16x16_S512x16x16_S512x16x16_2_1_1_2_0_0 16 rfl rfl).symm]
  refine Finset.sum_congr rfl fun k _ => ?_
  have hk := ValueIdx.contrEquiv1_symm_val dot_S512x16x16_S512x16x16_S512x16x16_2_1_1_2_0_0 16 rfl rfl k
  have el : dot_S512x16x16_S512x16x16_S512x16x16_2_1_1_2_0_0.lhsIdx (ix3 f p q) ((ValueIdx.contrEquiv1 dot_S512x16x16_S512x16x16_S512x16x16_2_1_1_2_0_0 16 rfl rfl).symm k) = ix3 f p k :=
    funext fun a => Fin.ext (by
      match a with
      | ⟨0, _⟩ => exact lhs_axis0 _ _
      | ⟨1, _⟩ => exact lhs_axis1 _ _
      | ⟨2, _⟩ => exact (lhs_axis2 _ _).trans hk)
  have er : dot_S512x16x16_S512x16x16_S512x16x16_2_1_1_2_0_0.rhsIdx (ix3 f p q) ((ValueIdx.contrEquiv1 dot_S512x16x16_S512x16x16_S512x16x16_2_1_1_2_0_0 16 rfl rfl).symm k) = ix3 f k q :=
    funext fun a => Fin.ext (by
      match a with
      | ⟨0, _⟩ => exact rhs_axis0 _ _
      | ⟨1, _⟩ => exact (rhs_axis1 _ _).trans hk
      | ⟨2, _⟩ => exact rhs_axis2 _ _)
  rw [el, er]

/-- So the matrix the product holds at f is one step of the chain on the matrices its operands hold at f. -/
theorem mat3_matmul (A B : FVec Ideal S512x16x16 .bf16) (f : Fin 512) :
    mat3 (matmul dot_S512x16x16_S512x16x16_S512x16x16_2_1_1_2_0_0 none A B (constant S512x16x16 .f32 0x00000000#32)) f = step (mat3 A f) (mat3 B f) :=
  funext fun p => funext fun q => matmul_read A B f p q

/-- Rounding to bf16 changes nothing over the extended reals. -/
theorem mat3_truncf (X : FVec Ideal S512x16x16 .f32) (f : Fin 512) :
    mat3 (truncf .bf16 X bitsLt_bf16_f32) f = mat3 X f := rfl

/-! ## A row-scaled stage matrix in the body -/

/-- The body's scaled factor at the block's frequency f: S(i,j) = d(f,i) · U(i,j), with U a loaded stage matrix
    (a [1, 1, 16, 16] piece of the staged [8, 1, 16, 16] block). -/
def scaledBlk (d : S512x16.Idx → EReal) (u : S1x1x16x16.Idx → EReal) (f : Fin 512) : Fin 16 → Fin 16 → EReal :=
  fun i j => d (ix2 f i) * u (ix4 (0 : Fin 1) (0 : Fin 1) i j)

/-- The table block with a unit axis appended and broadcast along the columns, times the stage matrix with its
    two unit axes dropped, one prepended and broadcast along the frequencies, read at (f,i,j). -/
theorem scaled_read (d : FVec Ideal S512x16 .f32) (u : Vec Ideal S1x1x16x16 .f32) (f : Fin 512) (i j : Fin 16) :
    mulf (broadcastTo S512x16x16 (shapeCast S512x16x1 d shapeCasts_S512x16_S512x16x1) broadcasts_S512x16x1_S512x16x16)
         (broadcastTo S512x16x16 (shapeCast S1x16x16 (shapeCast S16x16 u shapeCasts_S1x1x16x16_S16x16) shapeCasts_S16x16_S1x16x16) broadcasts_S1x16x16_S512x16x16)
      (ix3 f i j) = d (ix2 f i) * u (ix4 (0 : Fin 1) (0 : Fin 1) i j) := by
  rw [ValueIdx.mulf_apply]
  have hd : (broadcastTo S512x16x16 (shapeCast S512x16x1 d shapeCasts_S512x16_S512x16x1) broadcasts_S512x16x1_S512x16x16) (ix3 f i j) = d (ix2 f i) := by
    refine (broadcastTo_apply _ broadcasts_S512x16x1_S512x16x16 (ix3 f i j) (ix3 f i (0 : Fin 1)) (fun a => ?_)).trans
      (shapeCast_apply d shapeCasts_S512x16_S512x16x1 (ix3 f i (0 : Fin 1)) (ix2 f i) ?_)
    · match a with
      | ⟨0, _⟩ => show f.val = if (512 : Nat) = 1 then 0 else f.val; rw [if_neg (by decide)]
      | ⟨1, _⟩ => show i.val = if (16 : Nat) = 1 then 0 else i.val; rw [if_neg (by decide)]
      | ⟨2, _⟩ => show 0 = if (1 : Nat) = 1 then 0 else j.val; rw [if_pos rfl]
    · rw [Shape.rowMajor_val_two, Shape.rowMajor_val_three]
      show f.val * 16 + i.val = (f.val * 16 + i.val) * 1 + 0
      omega
  have hu : (broadcastTo S512x16x16 (shapeCast S1x16x16 (shapeCast S16x16 u shapeCasts_S1x1x16x16_S16x16) shapeCasts_S16x16_S1x16x16) broadcasts_S1x16x16_S512x16x16) (ix3 f i j) = u (ix4 (0 : Fin 1) (0 : Fin 1) i j) := by
    refine (broadcastTo_apply _ broadcasts_S1x16x16_S512x16x16 (ix3 f i j) (ix3 (0 : Fin 1) i j) (fun a => ?_)).trans
      ((shapeCast_ab_1ab_apply _ shapeCasts_S16x16_S1x16x16 (0 : Fin 1) i j).trans
        (shapeCast_apply u shapeCasts_S1x1x16x16_S16x16 (ix2 i j) (ix4 (0 : Fin 1) (0 : Fin 1) i j) ?_))
    · match a with
      | ⟨0, _⟩ => show 0 = if (1 : Nat) = 1 then 0 else f.val; rw [if_pos rfl]
      | ⟨1, _⟩ => show i.val = if (16 : Nat) = 1 then 0 else i.val; rw [if_neg (by decide)]
      | ⟨2, _⟩ => show j.val = if (16 : Nat) = 1 then 0 else j.val; rw [if_neg (by decide)]
    · rw [Shape.rowMajor_val_four, Shape.rowMajor_val_two]
      show ((0 * 1 + 0) * 16 + i.val) * 16 + j.val = i.val * 16 + j.val
      omega
  rw [hd, hu]

theorem mat3_scaled (d : FVec Ideal S512x16 .f32) (u : Vec Ideal S1x1x16x16 .f32) (f : Fin 512) :
    mat3 (mulf (broadcastTo S512x16x16 (shapeCast S512x16x1 d shapeCasts_S512x16_S512x16x1) broadcasts_S512x16x1_S512x16x16)
               (broadcastTo S512x16x16 (shapeCast S1x16x16 (shapeCast S16x16 u shapeCasts_S1x1x16x16_S16x16) shapeCasts_S16x16_S1x16x16) broadcasts_S1x16x16_S512x16x16)) f
      = scaledBlk d u f :=
  funext fun i => funext fun j => scaled_read d u f i j

/-! ## The body's values as steps of the chain -/

/-- The table block passes through a cast to its own shape unchanged. -/
theorem pay2_eq (v0 : Vec Ideal S512x16 .f32) : k0_pay2 v0 = v0 := by
  unfold k0_pay2
  exact shapeCast_self _ _

/-- The fourth scaled factor (stage matrix 3). -/
theorem pay4_mat (v0 : Vec Ideal S512x16 .f32) (v29 : Vec Ideal S1x1x16x16 .f32) (f : Fin 512) :
    mat3 (k0_pay4 v0 v29) f = scaledBlk v0 v29 f := by
  unfold k0_pay4
  dsimp only
  rw [mat3_truncf, mat3_scaled, pay2_eq]

/-- The last scaled factor (stage matrix 7). -/
theorem pay6_mat (v1 : FVec Ideal S512x16 .f32) (v69 : Vec Ideal S1x1x16x16 .f32) (f : Fin 512) :
    mat3 (k0_pay6 v1 v69) f = scaledBlk v1 v69 f := by
  unfold k0_pay6
  dsimp only
  rw [mat3_truncf, mat3_scaled]

/-- The first two products: (S₀ · S₁) · S₂. -/
theorem pay3_mat (v0 : Vec Ideal S512x16 .f32) (v2 v9 v19 : Vec Ideal S1x1x16x16 .f32) (f : Fin 512) :
    mat3 (k0_pay3 v0 v2 v9 v19) f = step (step (scaledBlk v0 v2 f) (scaledBlk v0 v9 f)) (scaledBlk v0 v19 f) := by
  unfold k0_pay3
  dsimp only
  simp only [mat3_truncf, mat3_matmul, mat3_scaled, pay2_eq]

/-- The next four products: (((P · S₃) · S₄) · S₅) · S₆, from the running product P and the factor S₃ it is handed. -/
theorem pay5_mat (v1 : FVec Ideal S512x16 .f32) (v36 v37 : FVec Ideal S512x16x16 .bf16)
    (v39 v49 v59 : Vec Ideal S1x1x16x16 .f32) (f : Fin 512) :
    mat3 (k0_pay5 v1 v36 v37 v39 v49 v59) f
      = step (step (step (step (mat3 v36 f) (mat3 v37 f)) (scaledBlk v1 v39 f)) (scaledBlk v1 v49 f)) (scaledBlk v1 v59 f) := by
  unfold k0_pay5
  dsimp only
  simp only [mat3_truncf, mat3_matmul, mat3_scaled]

/-- The last product, with the leading unit axis of the output block added, read at (0,f,p,q). -/
theorem pay1_read (v76 v77 : FVec Ideal S512x16x16 .bf16) (u : Fin 1) (f : Fin 512) (p q : Fin 16) :
    k0_pay1 v76 v77 (ix4 u f p q) = step (mat3 v76 f) (mat3 v77 f) p q := by
  unfold k0_pay1
  exact (shapeCast_abc_1abc_apply _ shapeCasts_S512x16x16_S1x512x16x16 u f p q).trans (matmul_read v76 v77 f p q)

end Cert.KernelIdeal.KerValue

end
-- ==== Proof.KernelBlock.lean ====
/-
  From what one grid point writes to the whole result array.

  Grid point t = (b, g) of the 32 × 8 grid stages the eight stage matrices of batch element b, the table rows of
  the 512 frequencies 512·g … 512·g + 511, and writes the output block (b, those frequencies, all rows and columns).
  The body's result at a block index (0, f, p, q) is the product of the eight row-scaled stage matrices of b at
  frequency 512·g + f: the whole-array function of ChainSpec.lean read through the block.  The 256 blocks tile the
  result array, so after the run the array is that function everywhere.  The table itself is computed by the host
  before the kernel runs: d(f,i) = z_f ^ (−m_i), by broadcasting z along the columns and −m along the rows.
-/
import proofs.«133188_j21079699489095_1_alg».proof.Proof.Gen.KernelIdeal.Value
import proofs.«133188_j21079699489095_1_alg».proof.Proof.KernelChain
import Idealize.ShloMosaic.Lib.StableHlo.Run

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat)
open Cert.Chain

/-! ## The body's result at a block index -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- A load of the k-th stage matrix out of the staged [8, 1, 16, 16] block reads, at (0,0,i,j), the block at (k,0,i,j). -/
theorem ld_stage (x0 : Vec Ideal S8x1x16x16 .f32) (off : Fin S8x1x16x16.rank → Nat)
    (inb : ∀ a, off a + S1x1x16x16.size a ≤ S8x1x16x16.size a) (k : Fin 8) (hoff : off = ![k.val, 0, 0, 0]) (i j : Fin 16) :
    View.ld x0 (Rect.unit (s := S8x1x16x16) off S1x1x16x16.size inb) (ix4 (0 : Fin 1) (0 : Fin 1) i j)
      = x0 (ix4 k (0 : Fin 1) i j) := by
  subst hoff
  show x0 ((Rect.unit (s := S8x1x16x16) ![k.val, 0, 0, 0] S1x1x16x16.size inb).emb (ix4 (0 : Fin 1) (0 : Fin 1) i j)) = _
  refine congrArg x0 (funext fun a => Fin.ext ?_)
  match a with
  | ⟨0, _⟩ => show k.val + 1 * 0 = k.val; omega
  | ⟨1, _⟩ => show 0 + 1 * 0 = 0; omega
  | ⟨2, _⟩ => show 0 + 1 * i.val = i.val; omega
  | ⟨3, _⟩ => show 0 + 1 * j.val = j.val; omega

/-- The body's k-th scaled factor, over the loaded stage matrix, is the table block's rows times stage matrix k. -/
theorem scaledBlk_ld (x0 : Vec Ideal S8x1x16x16 .f32) (x1 : Vec Ideal S512x16 .f32) (off : Fin S8x1x16x16.rank → Nat)
    (inb : ∀ a, off a + S1x1x16x16.size a ≤ S8x1x16x16.size a) (k : Fin 8) (hoff : off = ![k.val, 0, 0, 0]) (f : Fin 512) :
    scaledBlk x1 (View.ld x0 (Rect.unit (s := S8x1x16x16) off S1x1x16x16.size inb)) f
      = fun i j => x1 (ix2 f i) * x0 (ix4 k (0 : Fin 1) i j) := by
  funext i j
  show x1 (ix2 f i) * View.ld x0 (Rect.unit (s := S8x1x16x16) off S1x1x16x16.size inb) (ix4 (0 : Fin 1) (0 : Fin 1) i j) = _
  rw [ld_stage x0 off inb k hoff i j]

/-- What the body leaves in the output block, at (0,f,p,q): the (p,q) entry of the product of the eight stage
    matrices of the staged block, each with its rows scaled by the table block's row f. -/
theorem out_read (x0 : Vec Ideal S8x1x16x16 .f32) (x1 : Vec Ideal S512x16 .f32) (u : Fin 1) (f : Fin 512) (p q : Fin 16) :
    out0_2 x0 x1 (ix4 u f p q) = prod8 (fun k i j => x1 (ix2 f i) * x0 (ix4 k (0 : Fin 1) i j)) p q := by
  unfold out0_2
  rw [View.canon_unit_zero zeros4]
  rw [pay1_read, pay5_mat, pay3_mat, pay4_mat, pay6_mat]
  simp only [View.ld_unit_zero (S := S512x16) zeros2, pay2_eq]
  rw [scaledBlk_ld x0 x1 ![0, 0, 0, 0] inb_S8x1x16x16_S1x1x16x16_0_0_0_0 0 rfl f,
    scaledBlk_ld x0 x1 ![1, 0, 0, 0] inb_S8x1x16x16_S1x1x16x16_1_0_0_0 1 rfl f,
    scaledBlk_ld x0 x1 ![2, 0, 0, 0] inb_S8x1x16x16_S1x1x16x16_2_0_0_0 2 rfl f,
    scaledBlk_ld x0 x1 ![3, 0, 0, 0] inb_S8x1x16x16_S1x1x16x16_3_0_0_0 3 rfl f,
    scaledBlk_ld x0 x1 ![4, 0, 0, 0] inb_S8x1x16x16_S1x1x16x16_4_0_0_0 4 rfl f,
    scaledBlk_ld x0 x1 ![5, 0, 0, 0] inb_S8x1x16x16_S1x1x16x16_5_0_0_0 5 rfl f,
    scaledBlk_ld x0 x1 ![6, 0, 0, 0] inb_S8x1x16x16_S1x1x16x16_6_0_0_0 6 rfl f,
    scaledBlk_ld x0 x1 ![7, 0, 0, 0] inb_S8x1x16x16_S1x1x16x16_7_0_0_0 7 rfl f]
  rfl

/-! ## The scale table the host computes before the kernel runs -/

variable (m : (ℓ : Loc nD τ sig) → Buf (Elt Ideal) ℓ) (ρ : Dev nD → PrngReg)

/-- The table's array as the kernel finds it: the host's power of z broadcast along the columns and the real
    value of −m broadcast along the rows. -/
theorem table_term (c : Dev nD) :
    (V m c main_v7 : S4096x16.Idx → EReal)
      = Host.powf (F := Ideal)
          (broadcastInDim S4096x16 ![0, 1] bcast_S4096x1_S4096x16_0_1
            (broadcastInDim S4096x1 ![0] bcast_S4096_S4096x1_0 (m ((c : Thread nD τ).loc main_arg1))))
          (broadcastInDim S4096x16 ![0, 1] bcast_S1x16_S4096x16_0_1
            (sitofp (F := Ideal) .f32 (broadcastInDim S1x16 ![1] bcast_S16_S1x16_1 (negi (m ((c : Thread nD τ).loc main_arg2)))))) := by
  dsimp only [Gen.V, Gen.hostOps0]
  after_results

/-- Entry (f,i) of that array is z_f ^ (−m_i): the scale table of the specification. -/
theorem table_eq (c : Dev nD) :
    (V m c main_v7 : S4096x16.Idx → EReal)
      = scaleTable (m ((c : Thread nD τ).loc main_arg1)) (m ((c : Thread nD τ).loc main_arg2)) := by
  rw [table_term]
  funext y
  obtain ⟨f, i, rfl⟩ : ∃ (f : Fin 4096) (i : Fin 16), y = ix2 f i := ⟨y 0, y 1, eq_ix2 y⟩
  rw [scaleTable_ix2]
  show FloatOps.hostPowf (F := Ideal) (φ := .f32) _ _ = _
  refine congrArg₂ (FloatOps.hostPowf (F := Ideal) (φ := .f32)) ?_ ?_
  · refine (broadcastInDim_apply _ bcast_S4096x1_S4096x16_0_1 _ (ix2 f i) (ix2 f (0 : Fin 1)) (fun a => ?_)).trans
      (broadcastInDim_apply _ bcast_S4096_S4096x1_0 _ (ix2 f (0 : Fin 1)) (ix1 f) (fun a => ?_))
    · match a with
      | ⟨0, _⟩ => show f.val = if (4096 : Nat) = 1 then 0 else f.val; rw [if_neg (by decide)]
      | ⟨1, _⟩ => show 0 = if (1 : Nat) = 1 then 0 else i.val; rw [if_pos rfl]
    · match a with
      | ⟨0, _⟩ => show f.val = if (4096 : Nat) = 1 then 0 else f.val; rw [if_neg (by decide)]
  · refine (broadcastInDim_apply _ bcast_S1x16_S4096x16_0_1 _ (ix2 f i) (ix2 (0 : Fin 1) i) (fun a => ?_)).trans ?_
    · match a with
      | ⟨0, _⟩ => show 0 = if (1 : Nat) = 1 then 0 else f.val; rw [if_pos rfl]
      | ⟨1, _⟩ => show i.val = if (16 : Nat) = 1 then 0 else i.val; rw [if_neg (by decide)]
    · show FloatOps.sitofp (F := Ideal) .f32 _ = _
      refine congrArg (FloatOps.sitofp (F := Ideal) .f32) ?_
      refine (broadcastInDim_apply _ bcast_S16_S1x16_1 _ (ix2 (0 : Fin 1) i) (ix1 i) (fun a => ?_)).trans rfl
      match a with
      | ⟨0, _⟩ => show i.val = if (16 : Nat) = 1 then 0 else i.val; rw [if_neg (by decide)]

/-! ## Which blocks a grid point stages and writes -/

/-- The printed index maps over the 256 grid points t = 8·b + g: the output block is (b, g, 0, 0), the stage
    matrices' block (0, b, 0, 0), the table's block (g, 0). -/
theorem idx_facts : ∀ t : Fin cfg0.N,
    win0_2.index t (0 : Fin 4) = t.val / 8 ∧ win0_2.index t (1 : Fin 4) = t.val % 8
    ∧ win0_2.index t (2 : Fin 4) = 0 ∧ win0_2.index t (3 : Fin 4) = 0
    ∧ win0_0.index t (0 : Fin 4) = 0 ∧ win0_0.index t (1 : Fin 4) = t.val / 8
    ∧ win0_0.index t (2 : Fin 4) = 0 ∧ win0_0.index t (3 : Fin 4) = 0
    ∧ win0_1.index t (0 : Fin 2) = t.val % 8 ∧ win0_1.index t (1 : Fin 2) = 0 :=
  (by decide +kernel : ∀ t : Fin grid0.N, _)

theorem point_lt (t : Fin cfg0.N) : t.val < 256 := lt_of_lt_of_eq t.isLt N_0

/-- An index of the result array is in point t's block iff each coordinate is in the block's range on its axis. -/
theorem mem_blk (t : Fin cfg0.N) (i : S32x4096x16x16.Idx) :
    i ∈ ((cfg0.win 2).blk t).view.set ↔ ∀ a : Fin 4, win0_2.index t a * S1x512x16x16.size a ≤ (i a).val
      ∧ (i a).val < win0_2.index t a * S1x512x16x16.size a + S1x512x16x16.size a := by
  show i ∈ ((View.whole main_v8).slice (win0_2.rect t)).set ↔ _
  rw [View.set_slice_whole, Rect.mem_set_unit]
  exact Iff.rfl

/-! ## One block, read through the whole-array function -/

/-- The body's result at point t, at an index y of the output block, is the chain of the stage matrices and the
    table (as the kernel finds them) at the array index the block puts y at. -/
theorem block_read (c : Dev nD) (t : Fin cfg0.N) (y : S1x512x16x16.Idx) :
    out0_2 (iblk m c 0 t) (iblk m c 1 t) y
      = chain (V m c main_arg0) (V m c main_v7) (((cfg0.win 2).blk t).view.emb y) := by
  obtain ⟨u, f, p, q, rfl⟩ : ∃ (u : Fin 1) (f : Fin 512) (p q : Fin 16), y = ix4 u f p q :=
    ⟨y 0, y 1, y 2, y 3, eq_ix4 y⟩
  obtain ⟨e20, e21, e22, e23, e00, e01, e02, e03, e10, e11⟩ := idx_facts t
  have ht := point_lt t
  have hu : u.val = 0 := by omega
  have hf := f.isLt
  refine (out_read (iblk m c 0 t) (iblk m c 1 t) u f p q).trans ?_
  -- where the block puts (0,f,p,q): batch b = t / 8, frequency 512·(t % 8) + f, row p, column q
  have hemb : ((cfg0.win 2).blk t).view.emb (ix4 u f p q)
      = ix4 (⟨t.val / 8, by omega⟩ : Fin 32) (⟨t.val % 8 * 512 + f.val, by omega⟩ : Fin 4096) p q := by
    funext a; apply Fin.ext
    match a with
    | ⟨0, _⟩ => show win0_2.index t (0 : Fin 4) * 1 + 1 * u.val = t.val / 8; omega
    | ⟨1, _⟩ => show win0_2.index t (1 : Fin 4) * 512 + 1 * f.val = t.val % 8 * 512 + f.val; omega
    | ⟨2, _⟩ => show win0_2.index t (2 : Fin 4) * 16 + 1 * p.val = p.val; omega
    | ⟨3, _⟩ => show win0_2.index t (3 : Fin 4) * 16 + 1 * q.val = q.val; omega
  rw [hemb, chain_ix4]
  unfold chainAt
  refine congrFun (congrFun (prod8_congr fun k i j => ?_) p) q
  -- the staged table row and stage-matrix entry are the arrays' entries at that frequency and batch element
  have h1 : iblk m c 1 t (ix2 f i) = V m c main_v7 (ix2 (⟨t.val % 8 * 512 + f.val, by omega⟩ : Fin 4096) i) := by
    show V m c main_v7 (((cfg0.win 1).blk t).view.emb (ix2 f i)) = _
    refine congrArg (V m c main_v7) (funext fun a => Fin.ext ?_)
    match a with
    | ⟨0, _⟩ => show win0_1.index t (0 : Fin 2) * 512 + 1 * f.val = t.val % 8 * 512 + f.val; omega
    | ⟨1, _⟩ => show win0_1.index t (1 : Fin 2) * 16 + 1 * i.val = i.val; omega
  have h0 : iblk m c 0 t (ix4 k (0 : Fin 1) i j) = V m c main_arg0 (ix4 k (⟨t.val / 8, by omega⟩ : Fin 32) i j) := by
    show V m c main_arg0 (((cfg0.win 0).blk t).view.emb (ix4 k (0 : Fin 1) i j)) = _
    refine congrArg (V m c main_arg0) (funext fun a => Fin.ext ?_)
    match a with
    | ⟨0, _⟩ => show win0_0.index t (0 : Fin 4) * 8 + 1 * k.val = k.val; omega
    | ⟨1, _⟩ => show win0_0.index t (1 : Fin 4) * 1 + 1 * 0 = t.val / 8; omega
    | ⟨2, _⟩ => show win0_0.index t (2 : Fin 4) * 16 + 1 * i.val = i.val; omega
    | ⟨3, _⟩ => show win0_0.index t (3 : Fin 4) * 16 + 1 * j.val = j.val; omega
  rw [h1, h0]

/-- What point t writes back is block t of the chain of the stage matrices and the table. -/
theorem flushed_eq (c : Dev nD) (t : Fin cfg0.N) :
    (dats m 0 c).flushed 2 t
      = ((cfg0.win 2).blk t).view.read (Elt Ideal) (chain (V m c main_arg0) (V m c main_v7)) := by
  rw [Value.flushed2]
  funext y
  exact block_read m c t y

/-- Every index (b, F, p, q) of the result array lies in the block of the grid point 8·b + F / 512. -/
theorem cover (i : S32x4096x16x16.Idx) :
    ∃ t : Fin cfg0.N, (cfg0.win 2).flush t = true ∧ i ∈ ((cfg0.win 2).blk t).view.set := by
  have h0 : (i 0).val < 32 := (i 0).isLt
  have h1 : (i 1).val < 4096 := (i 1).isLt
  have h2 : (i 2).val < 16 := (i 2).isLt
  have h3 : (i 3).val < 16 := (i 3).isLt
  have hN : (i 0).val * 8 + (i 1).val / 512 < cfg0.N := by
    show (i 0).val * 8 + (i 1).val / 512 < grid0.N
    rw [N_0]; omega
  refine ⟨⟨(i 0).val * 8 + (i 1).val / 512, hN⟩, flush0_2 _, ?_⟩
  rw [mem_blk]
  obtain ⟨e20, e21, e22, e23, -⟩ := idx_facts ⟨(i 0).val * 8 + (i 1).val / 512, hN⟩
  have v : (⟨(i 0).val * 8 + (i 1).val / 512, hN⟩ : Fin cfg0.N).val = (i 0).val * 8 + (i 1).val / 512 := rfl
  rw [v] at e20 e21
  intro a
  match a with
  | ⟨0, _⟩ =>
    show win0_2.index ⟨(i 0).val * 8 + (i 1).val / 512, hN⟩ (0 : Fin 4) * 1 ≤ (i 0).val
      ∧ (i 0).val < win0_2.index ⟨(i 0).val * 8 + (i 1).val / 512, hN⟩ (0 : Fin 4) * 1 + 1
    omega
  | ⟨1, _⟩ =>
    show win0_2.index ⟨(i 0).val * 8 + (i 1).val / 512, hN⟩ (1 : Fin 4) * 512 ≤ (i 1).val
      ∧ (i 1).val < win0_2.index ⟨(i 0).val * 8 + (i 1).val / 512, hN⟩ (1 : Fin 4) * 512 + 512
    omega
  | ⟨2, _⟩ =>
    show win0_2.index ⟨(i 0).val * 8 + (i 1).val / 512, hN⟩ (2 : Fin 4) * 16 ≤ (i 2).val
      ∧ (i 2).val < win0_2.index ⟨(i 0).val * 8 + (i 1).val / 512, hN⟩ (2 : Fin 4) * 16 + 16
    omega
  | ⟨3, _⟩ =>
    show win0_2.index ⟨(i 0).val * 8 + (i 1).val / 512, hN⟩ (3 : Fin 4) * 16 ≤ (i 3).val
      ∧ (i 3).val < win0_2.index ⟨(i 0).val * 8 + (i 1).val / 512, hN⟩ (3 : Fin 4) * 16 + 16
    omega

/-- The result array after the run: the chain of the launch-time stage matrices and the scale table z ^ (−m). -/
theorem final (c : Dev nD) :
    (dats m 0 c).arrAt 2 cfg0.N
      = chain (m ((c : Thread nD τ).loc main_arg0))
          (scaleTable (m ((c : Thread nD τ).loc main_arg1)) (m ((c : Thread nD τ).loc main_arg2))) := by
  rw [(dats m 0 c).arrAt_eq_of_cover 2 (chain (V m c main_arg0) (V m c main_v7)) (fun t _ => flushed_eq m c t) cover,
    V_main_arg0, table_eq]

/-- The kernel's run with its result named: every fair execution ends with the result array at the chain of the
    arguments, the arguments unchanged. -/
theorem run : θ_run defs (onTc (τ := τ) (main (F := Ideal))) ⟨m, fun _ => 0, ρ⟩ fun r => ∀ c : Dev nD,
      r.2.mem ((c : Thread nD τ).loc main_v8)
        = chain (m ((c : Thread nD τ).loc main_arg0))
            (scaleTable (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KerValue

end
-- ==== Proof.lean ====
/-
  A cascade of eight stage matrices with per-channel delays, evaluated at 4096 frequencies for 32 batch elements.

  For a batch element b and a frequency f, with the table d(f,i) = z_f ^ (−m_i), the result is the 16×16 matrix
      (((((((S₀ · S₁) · S₂) · S₃) · S₄) · S₅) · S₆) · S₇),        S_k(i,j) = d(f,i) · U(k,b,i,j),
  each product (A · S)(p,q) = Σ_j A(p,j) · S(j,q).  The kernel computes the table on the host, then per grid point
  (one batch element, 512 frequencies) scales the eight stage matrices and multiplies them, batched over the
  frequencies, with operands rounded to bf16 — which is the identity over the extended reals.  The reference
  scales and multiplies whole [32, 4096, 16, 16] arrays.  Over the extended reals both form the same sums of the same
  products in the same nesting (ChainSpec.lean), so the two results agree by congruence: no algebraic law, and so
  no finiteness of the inputs, is needed; the exponent −m is the same 32-bit negation on both sides.

  RefChain.lean reads the reference's operations onto that chain; KernelChain.lean the kernel body's values;
  KernelBlock.lean carries one block's value to the whole result array (the 256 blocks tile it) and reads the
  host-computed table.  The frames of the two kernel programs and the run of the reference are the generated ones;
  no operation of the kernel was rewritten when it was idealized, so that conjunct is trivial.
-/
import proofs.«133188_j21079699489095_1_alg».proof.Defs
import proofs.«133188_j21079699489095_1_alg».proof.Proof.Gen.Kernel
import proofs.«133188_j21079699489095_1_alg».proof.Proof.Gen.Kernel.Skeleton
import proofs.«133188_j21079699489095_1_alg».proof.Proof.Gen.Kernel.Launch
import proofs.«133188_j21079699489095_1_alg».proof.Proof.Gen.Kernel.Points
import proofs.«133188_j21079699489095_1_alg».proof.Proof.Gen.Kernel.Frame
import proofs.«133188_j21079699489095_1_alg».proof.Proof.Gen.KernelIdeal
import proofs.«133188_j21079699489095_1_alg».proof.Proof.Gen.KernelIdeal.Skeleton
import proofs.«133188_j21079699489095_1_alg».proof.Proof.Gen.KernelIdeal.Launch
import proofs.«133188_j21079699489095_1_alg».proof.Proof.Gen.KernelIdeal.Points
import proofs.«133188_j21079699489095_1_alg».proof.Proof.Gen.KernelIdeal.Frame
import proofs.«133188_j21079699489095_1_alg».proof.Proof.Gen.ReferenceIdeal
import proofs.«133188_j21079699489095_1_alg».proof.Proof.Gen.KernelIdeal.Value
import proofs.«133188_j21079699489095_1_alg».proof.Proof.Gen.ReferenceIdeal.Run
import proofs.«133188_j21079699489095_1_alg».proof.Proof.Gen.ReferenceIdeal.Read
import proofs.«133188_j21079699489095_1_alg».proof.Proof.Gen.Pre_finite_inputs
import proofs.«133188_j21079699489095_1_alg».proof.Proof.ChainSpec
import proofs.«133188_j21079699489095_1_alg».proof.Proof.RefChain
import proofs.«133188_j21079699489095_1_alg».proof.Proof.KernelChain
import proofs.«133188_j21079699489095_1_alg».proof.Proof.KernelBlock
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on U, z and m, both programs end with the result array at the
    chain of the eight row-scaled stage matrices: the kernel block by block (KernelBlock.lean), the reference level
    by level (RefChain.lean). -/
theorem algebraic : Cert.algebraic_KernelIdeal_ReferenceIdeal := by
  intro m ρ m' ρ' _ hagree
  refine ⟨fun c => Cert.Chain.chain (m ((c.tc : Thread Cert.KernelIdeal.nD Cert.KernelIdeal.τ).loc Cert.KernelIdeal.main_arg0))
      (Cert.Chain.scaleTable (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
